-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S1024x64 : Shape := ⟨2, ![1024, 64]⟩
abbrev S64 : Shape := ⟨1, ![64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x64 .f32) (main_arg1 : FVec F S1024x64 .f32) (main_arg2 : FVec F S64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x64 : Shape := ⟨2, ![16384, 64]⟩
abbrev S1024x64 : Shape := ⟨2, ![1024, 64]⟩
abbrev S64 : Shape := ⟨1, ![64]⟩
abbrev S16384x1024 : Shape := ⟨2, ![16384, 1024]⟩
abbrev S1024x1024 : Shape := ⟨2, ![1024, 1024]⟩
abbrev S1x64 : Shape := ⟨2, ![1, 64]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64, .f32⟩
  | .hbm, ⟨3, _⟩ => ⟨S16384x1024, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S64, .f32⟩
  | .local _ .vmem, ⟨4, _⟩ => ⟨S1024x1024, .f32⟩
  | .local _ .vmem, ⟨5, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64_S64_0 : ∀ a, (![0] : Fin 1 → Nat) a + S64.size a ≤ S64.size a
  h_S64 : 0 < S64.numel
  inb_S1024x64_S1024x64_0_0 : ∀ a, (![0, 0] : Fin 2 → Nat) a + S1024x64.size a ≤ S1024x64.size a
  h_S1024x64 : 0 < S1024x64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S1024x64 : Shape := ⟨2, ![1024, 64]⟩
abbrev S64 : Shape := ⟨1, ![64]⟩
abbrev S1x64 : Shape := ⟨2, ![1, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S64, .f32⟩
  | .hbm, ⟨3, _⟩ => ⟨S1x64, .f32⟩
  | .hbm, ⟨4, _⟩ => ⟨S16384x64, .f32⟩
  | .hbm, ⟨5, _⟩ => ⟨S16384x64, .f32⟩
  | .hbm, ⟨6, _⟩ => ⟨S1x64, .f32⟩
  | .hbm, ⟨7, _⟩ => ⟨S1024x64, .f32⟩
  | .hbm, ⟨8, _⟩ => ⟨S1024x64, .f32⟩
  | .hbm, ⟨9, _⟩ => ⟨S16384x64, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S1024x64, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S1x64_S1024x64_0_1 : S1x64.BroadcastsInDim S1024x64 (![0, 1] : Fin 2 → Fin S1024x64.rank)
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S1024x64_S1024_d1 : S1024x64.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x64_S1024x64_S16384x1024_1_1_0_0_n_n_wf : DotDims.WF S16384x64 S1024x64 S16384x1024 [1] [1] [0] [0] [] []

variable [Facts₀]

def dot_S16384x64_S1024x64_S16384x1024_1_1_0_0_n_n : DotDims S16384x64 S1024x64 S16384x1024 where
  lhsContracting := [1]
  rhsContracting := [1]
  lhsNonContracting := [0]
  rhsNonContracting := [0]
  lhsBatch := []
  rhsBatch := []
  wf := dot_S16384x64_S1024x64_S16384x1024_1_1_0_0_n_n_wf

class Facts : Prop extends Facts₀ where

variable [Facts]
-- ==== Proof.LibColumn.lean ====
/-
  Two layout facts about a COLUMN, the shape a row reduction with kept dimensions leaves.
  A vector of length `a` recast as the column `[a, 1]` holds, at `(i, u)`, the vector's entry `i`
  (the unit coordinate `u` can only be `0`); and a column `[a, 1]` broadcast to `[a, b]` holds, at
  `(p, c)`, the column's entry of row `p`, whatever the lane `c`. Both positions are compared in
  row-major order: `i = i * 1 + 0`.
-/
import Idealize.ShloMosaic.Lib.Pipeline.Value
import Idealize.ShloMosaic.Lib.ValueIdx

namespace Cert.LibColumn

open Idealize.ShloMosaic Idealize.ShloMosaic.ValueIdx

variable {α : Type}

/-- A vector `[a]` recast as the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Spec.lean ====
/-
  The function both programs compute, over the extended reals.
  For rows `x p` (a point) and `c q` (a centroid), both divided entrywise by the temperatures `t`,
  the entry `(p, q)` is  -(1/2) * sqrt (max (|x p / t|^2 + |c q / t|^2 - 2 * <x p / t, c q / t>) 0):
  minus half the distance between the two scaled rows, the square expanded into two norms and an inner
  product. The three sums run over the 64 features. The kernel spells the last two steps as
  `(0 - d) * (1/2)`, the reference as `(-d) / 2` and starts each of its two norm sums from a zero;
  `cellRef_eq` says the two spellings are one extended real, for every value of the sums, infinite ones
  included: a quotient by the real 2 is the product with the real 1/2.
-/
import Idealize.ShloMosaic.PureOps.Ideal
import Idealize.ShloMosaic.PureOps.Ideal.Laws
import Idealize.ShloMosaic.Lib.ValueIdx

noncomputable section

namespace Cert.Dist

open Idealize.ShloMosaic Idealize.ShloMosaic.ValueIdx

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- Entry `(p, k)` of a matrix with 64 columns, divided by the temperature of feature `k`. -/
def scaled {n : ℕ} (a : (⟨2, ![n, 64]⟩ : Shape).Idx → EReal) (t : (⟨1, ![64]⟩ : Shape).Idx → EReal) (p : Fin n) (k : Fin 64) : EReal :=
  Ideal.div (a (ix2 p k)) (t (ix1 k))

/-- Minus half the root of the clamped expanded square, from the two squared norms and the inner product,
    in the kernel's spelling. -/
def cell (sx sc dot : EReal) : EReal :=
  (Ideal.ofBits .f32 0x00000000#32
      - Ideal.sqrt (max (sx + sc - Ideal.ofBits .f32 0x40000000#32 * dot) (Ideal.ofBits .f32 0x00000000#32)))
    * Ideal.ofBits .f32 0x3F000000#32

/-- The same in the reference's spelling: each norm sum started from a zero, a negation, a quotient by 2. -/
def cellRef (sx sc dot : EReal) : EReal :=
  Ideal.div (-(Ideal.sqrt (max ((Ideal.ofBits .f32 0x00000000#32 + sx) + (Ideal.ofBits .f32 0x00000000#32 + sc)
      - Ideal.ofBits .f32 0x40000000#32 * dot) (Ideal.ofBits .f32 0x00000000#32)))) (Ideal.ofBits .f32 0x40000000#32)

/-- The two spellings agree on every triple of extended reals. -/
theorem cellRef_eq (sx sc dot : EReal) : cellRef sx sc dot = cell sx sc dot := by
  unfold cellRef cell
  rw [Ideal.ofBits_zero_f32, zero_add, zero_add, zero_sub, ofBits_two, ofBits_half,
    Ideal.div_coe (by norm_num : (2 : ℝ) ≠ 0)]

/-- Entry `(p, q)`: the cell of the two scaled rows' squared norms and inner product. -/
def negHalfDistAt {n m : ℕ} (x : (⟨2, ![n, 64]⟩ : Shape).Idx → EReal) (c : (⟨2, ![m, 64]⟩ : Shape).Idx → EReal)
    (t : (⟨1, ![64]⟩ : Shape).Idx → EReal) (p : Fin n) (q : Fin m) : EReal :=
  cell (∑ k : Fin 64, scaled x t p k * scaled x t p k) (∑ k : Fin 64, scaled c t q k * scaled c t q k)
    (∑ k : Fin 64, scaled x t p k * scaled c t q k)

/-- The whole `[n, m]` array of such entries. -/
def negHalfDist {n m : ℕ} (x : (⟨2, ![n, 64]⟩ : Shape).Idx → EReal) (c : (⟨2, ![m, 64]⟩ : Shape).Idx → EReal)
    (t : (⟨1, ![64]⟩ : Shape).Idx → EReal) : (⟨2, ![n, m]⟩ : Shape).Idx → EReal :=
  fun i => negHalfDistAt x c t (i 0) (i 1)

theorem negHalfDist_ix2 {n m : ℕ} (x : (⟨2, ![n, 64]⟩ : Shape).Idx → EReal) (c : (⟨2, ![m, 64]⟩ : Shape).Idx → EReal)
    (t : (⟨1, ![64]⟩ : Shape).Idx → EReal) (p : Fin n) (q : Fin m) :
    negHalfDist x c t (ix2 p q) = negHalfDistAt x c t p q := rfl

/-- An entry reads only row `i 0` of the points, row `i 1` of the centroids and the temperatures: two triples
    of arrays, of any heights, that agree on those give the same entry. -/
theorem negHalfDist_congr {n m n' m' : ℕ} (x : (⟨2, ![n, 64]⟩ : Shape).Idx → EReal) (c : (⟨2, ![m, 64]⟩ : Shape).Idx → EReal)
    (t : (⟨1, ![64]⟩ : Shape).Idx → EReal) (x' : (⟨2, ![n', 64]⟩ : Shape).Idx → EReal)
    (c' : (⟨2, ![m', 64]⟩ : Shape).Idx → EReal) (t' : (⟨1, ![64]⟩ : Shape).Idx → EReal)
    (i : (⟨2, ![n, m]⟩ : Shape).Idx) (i' : (⟨2, ![n', m']⟩ : Shape).Idx)
    (hx : ∀ k : Fin 64, x (ix2 (i 0) k) = x' (ix2 (i' 0) k)) (hc : ∀ k : Fin 64, c (ix2 (i 1) k) = c' (ix2 (i' 1) k))
    (ht : ∀ k : Fin 64, t (ix1 k) = t' (ix1 k)) :
    negHalfDist x c t i = negHalfDist x' c' t' i' := by
  unfold negHalfDist negHalfDistAt scaled
  simp only [hx, hc, ht]

end Cert.Dist

end
-- ==== Proof.Payload.lean ====
/-
  What the kernel body computes from the three blocks it loads, entry by entry.
  With `v0` the 64 temperatures, `v1` a block of 1024 points and `v2` the 1024 centroids, entry
  `(p, q)` of the stored tile is the cell (Spec) of: the squared norm of row `p` of `v1 / v0` (a
  lane sum, kept as a column and spread over the lanes), the squared norm of row `q` of `v2 / v0`
  (a lane sum, laid as a row and spread over the sublanes), and their inner product (the matrix
  product of the two scaled blocks contracted over the 64 features into a zero accumulator; the
  narrowing of the operands to bf16 changes no extended real).
-/
import proofs.«161411_j65549790871957_1_alg».proof.Proof.Gen.KernelIdeal.Skeleton
import proofs.«161411_j65549790871957_1_alg».proof.Proof.LibColumn
import proofs.«161411_j65549790871957_1_alg».proof.Proof.Spec
import Idealize.ShloMosaic.Lib.ValueLayout
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx Cert.LibColumn Cert.Dist

/-- A vector square root read at an index. -/
theorem sqrt_apply {s : Shape} {φ : FTy} (a : FVec Ideal s φ) (i : s.Idx) : sqrt a i = Ideal.sqrt (a i) := rfl

/-- A block divided by the temperatures, spread over its rows: entry `(p, k)` is the block's entry over
    temperature `k`. -/
theorem scaled_apply (v : FVec Ideal S1024x64 .f32) (t : FVec Ideal S64 .f32) (h1 : S64.ShapeCasts S1x64)
    (h2 : S1x64.Broadcasts S1024x64) (p : Fin 1024) (k : Fin 64) :
    divf v (broadcastTo S1024x64 (shapeCast S1x64 t h1) h2) (ix2 p k) = scaled v t p k := by
  rw [divf_apply, broadcastTo_1b_ab_apply, shapeCast_a_1a_apply]; rfl

/-- A lane sum started from the zero word: entry `p` is the sum of row `p`. -/
theorem rowSum_apply (w : FVec Ideal S1024x64 .f32) (h : S1024x64.Reduces [1] S1024) (hφ : FKind.Formats .f32)
    (hacc : (0x00000000#32 : BitVec 32) = FKind.add.neutral .f32 hφ) (p : Fin 1024) :
    multiReduction .add [1] S1024 w 0x00000000#32 h hφ hacc (ix1 p) = ∑ k : Fin 64, w (ix2 p k) := by
  refine (Ideal.multiReduction_add_single w 0x00000000#32 h hφ hacc (ix1 p)).trans ?_
  refine Finset.sum_congr rfl fun k _ => congrArg w ?_
  exact funext fun a => Fin.ext (by match a with | ⟨0, _⟩ => rfl | ⟨1, _⟩ => rfl)

/-- The row sums of squares kept as a column and spread over the lanes: entry `(p, q)` is the squared
    norm of row `p`. -/
theorem normCol_apply (X : FVec Ideal S1024x64 .f32) (h : S1024x64.Reduces [1] S1024) (hφ : FKind.Formats .f32)
    (hacc : (0x00000000#32 : BitVec 32) = FKind.add.neutral .f32 hφ) (h3 : S1024.ShapeCasts S1024x1)
    (h4 : S1024x1.Broadcasts S1024x1024) (p q : Fin 1024) :
    broadcastTo S1024x1024 (shapeCast S1024x1 (multiReduction .add [1] S1024 (mulf X X) 0x00000000#32 h hφ hacc) h3) h4 (ix2 p q)
      = ∑ k : Fin 64, X (ix2 p k) * X (ix2 p k) := by
  rw [broadcastTo_a1_ab_apply, shapeCast_a_a1_apply, rowSum_apply]
  rfl

/-- The row sums of squares laid as a row and spread over the sublanes: entry `(p, q)` is the squared
    norm of row `q`. -/
theorem normRow_apply (Y : FVec Ideal S1024x64 .f32) (h : S1024x64.Reduces [1] S1024) (hφ : FKind.Formats .f32)
    (hacc : (0x00000000#32 : BitVec 32) = FKind.add.neutral .f32 hφ) (h3 : S1024.ShapeCasts S1x1024)
    (h4 : S1x1024.Broadcasts S1024x1024) (p q : Fin 1024) :
    broadcastTo S1024x1024 (shapeCast S1x1024 (multiReduction .add [1] S1024 (mulf Y Y) 0x00000000#32 h hφ hacc) h3) h4 (ix2 p q)
      = ∑ k : Fin 64, Y (ix2 q k) * Y (ix2 q k) := by
  rw [broadcastTo_1b_ab_apply, shapeCast_a_1a_apply, rowSum_apply]
  rfl

/-! The matrix product contracts axis 1 of both operands: its left index at `(i, k)` is `(i 0, k)`, its
    right index `(i 1, k)`. -/

theorem lhs_dot_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem lhs_dot_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
theorem rhs_dot_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem rhs_dot_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- The matrix product of two blocks over the features into a zero accumulator: entry `(p, q)` is the inner
    product of row `p` of the first with row `q` of the second. -/
theorem inner_apply (X Y : FVec Ideal S1024x64 .f32) (hb : FTy.bits .bf16 < FTy.bits .f32) (p q : Fin 1024) :
    matmul dot_S1024x64_S1024x64_S1024x1024_1_1_0_0_n_n none (truncf .bf16 X hb) (truncf .bf16 Y hb)
        (constant S1024x1024 .f32 0x00000000#32) (ix2 p q)
      = ∑ k : Fin 64, X (ix2 p k) * Y (ix2 q k) := by
  refine (Ideal.matmul_constant_zero_apply dot_S1024x64_S1024x64_S1024x1024_1_1_0_0_n_n none (truncf .bf16 X hb) (truncf .bf16 Y hb) (ix2 p q)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 p q) ((contrEquiv1 dot_S1024x64_S1024x64_S1024x1024_1_1_0_0_n_n 64 rfl rfl).symm k) = ix2 p k := funext fun a => Fin.ext (by
    match a with
    | ⟨0, _⟩ => exact lhs_dot_0 _ _
    | ⟨1, _⟩ => exact (lhs_dot_1 _ _).trans hk)
  have er : dot_S1024x64_S1024x64_S1024x1024_1_1_0_0_n_n.rhsIdx (ix2 p q) ((contrEquiv1 dot_S1024x64_S1024x64_S1024x1024_1_1_0_0_n_n 64 rfl rfl).symm k) = ix2 q k := funext fun a => Fin.ext (by
    match a with
    | ⟨0, _⟩ => exact rhs_dot_0 _ _
    | ⟨1, _⟩ => exact (rhs_dot_1 _ _).trans hk)
  rw [el, er]
  rfl

/-- The three facts above for blocks already divided by the temperatures. -/
theorem normCol_scaled (v : FVec Ideal S1024x64 .f32) (t : FVec Ideal S64 .f32) (h1 : S64.ShapeCasts S1x64)
    (h2 : S1x64.Broadcasts S1024x64) (h : S1024x64.Reduces [1] S1024) (hφ : FKind.Formats .f32)
    (hacc : (0x00000000#32 : BitVec 32) = FKind.add.neutral .f32 hφ) (h3 : S1024.ShapeCasts S1024x1)
    (h4 : S1024x1.Broadcasts S1024x1024) (p q : Fin 1024) :
    broadcastTo S1024x1024 (shapeCast S1024x1 (multiReduction .add [1] S1024
        (mulf (divf v (broadcastTo S1024x64 (shapeCast S1x64 t h1) h2)) (divf v (broadcastTo S1024x64 (shapeCast S1x64 t h1) h2)))
        0x00000000#32 h hφ hacc) h3) h4 (ix2 p q)
      = ∑ k : Fin 64, scaled v t p k * scaled v t p k :=
  (normCol_apply _ h hφ hacc h3 h4 p q).trans (Finset.sum_congr rfl fun k _ => by rw [scaled_apply])

theorem normRow_scaled (v : FVec Ideal S1024x64 .f32) (t : FVec Ideal S64 .f32) (h1 : S64.ShapeCasts S1x64)
    (h2 : S1x64.Broadcasts S1024x64) (h : S1024x64.Reduces [1] S1024) (hφ : FKind.Formats .f32)
    (hacc : (0x00000000#32 : BitVec 32) = FKind.add.neutral .f32 hφ) (h3 : S1024.ShapeCasts S1x1024)
    (h4 : S1x1024.Broadcasts S1024x1024) (p q : Fin 1024) :
    broadcastTo S1024x1024 (shapeCast S1x1024 (multiReduction .add [1] S1024
        (mulf (divf v (broadcastTo S1024x64 (shapeCast S1x64 t h1) h2)) (divf v (broadcastTo S1024x64 (shapeCast S1x64 t h1) h2)))
        0x00000000#32 h hφ hacc) h3) h4 (ix2 p q)
      = ∑ k : Fin 64, scaled v t q k * scaled v t q k :=
  (normRow_apply _ h hφ hacc h3 h4 p q).trans (Finset.sum_congr rfl fun k _ => by rw [scaled_apply])

theorem inner_scaled (v w : FVec Ideal S1024x64 .f32) (t : FVec Ideal S64 .f32) (h1 : S64.ShapeCasts S1x64)
    (h2 : S1x64.Broadcasts S1024x64) (hb : FTy.bits .bf16 < FTy.bits .f32) (p q : Fin 1024) :
    matmul dot_S1024x64_S1024x64_S1024x1024_1_1_0_0_n_n none
        (truncf .bf16 (divf v (broadcastTo S1024x64 (shapeCast S1x64 t h1) h2)) hb)
        (truncf .bf16 (divf w (broadcastTo S1024x64 (shapeCast S1x64 t h1) h2)) hb)
        (constant S1024x1024 .f32 0x00000000#32) (ix2 p q)
      = ∑ k : Fin 64, scaled v t p k * scaled w t q k :=
  (inner_apply _ _ hb p q).trans (Finset.sum_congr rfl fun k _ => by rw [scaled_apply, scaled_apply])

/-- The cell is a function of its three arguments. -/
theorem cell_congr {a a' b b' d d' : EReal} (ha : a = a') (hb : b = b') (hd : d = d') : cell a b d = cell a' b' d' := by
  rw [ha, hb, hd]

/-- THE STORED TILE, entry by entry: the cell of the two scaled rows. -/
theorem payload_apply (v0 : Vec Ideal S64 .f32) (v1 v2 : Vec Ideal S1024x64 .f32) (p q : Fin 1024) :
    k0_pay1 (F := Ideal) v0 v1 v2 (ix2 p q) = negHalfDistAt v1 v2 v0 p q := by
  unfold k0_pay1
  exact cell_congr (normCol_scaled v1 v0 _ _ _ _ _ _ _ p q) (normRow_scaled v2 v0 _ _ _ _ _ _ _ p q)
    (inner_scaled v1 v2 v0 _ _ _ p q)

/-- The stored tile is the distance function of the loaded blocks. -/
theorem payload_eq (v0 : Vec Ideal S64 .f32) (v1 v2 : Vec Ideal S1024x64 .f32) :
    k0_pay1 (F := Ideal) v0 v1 v2 = negHalfDist v1 v2 v0 := by
  funext j
  obtain ⟨p, q, rfl⟩ : ∃ (p : Fin 1024) (q : Fin 1024), j = ix2 p q := ⟨j 0, j 1, eq_ix2 j⟩
  exact payload_apply v0 v1 v2 p q

end Cert.KernelIdeal.Payload

end
-- ==== Proof.Tiles.lean ====
/-
  From tiles to the whole array. Grid point `t` loads rows `1024 t … 1024 t + 1023` of the points, all
  the centroids and all the temperatures, and writes back a `1024 × 1024` tile: rows `1024 t …` of the
  result, all columns. An entry of the distance function reads one row of the points and one of the
  centroids, so the tile a point writes is that block of the distance function of the WHOLE arrays;
  the sixteen tiles cover the `16384 × 1024` result (row `r` lies in the tile of point `r / 1024`), so
  after the run the result array is the distance function of the argument arrays.
-/
import proofs.«161411_j65549790871957_1_alg».proof.Proof.Gen.KernelIdeal.Value
import proofs.«161411_j65549790871957_1_alg».proof.Proof.Payload

noncomputable section

namespace Cert.KernelIdeal.Tiles

open Cert.KernelIdeal Cert.KernelIdeal.Gen Idealize.ShloMosaic Idealize.ShloMosaic.TcCoe Idealize.SL.Sem
open Idealize.ShloMosaic.ValueIdx Cert.Dist
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The result array as one function of the three argument arrays as the region finds them. -/
abbrev result (c : Dev nD) : S16384x1024.Idx → EReal :=
  negHalfDist (n := 16384) (m := 1024) (V m c main_arg0) (V m c main_arg1) (V m c main_arg2)

/-- The block indices, decided over the sixteen points: the points' window moves with the output's rows, the
    centroids' and the temperatures' windows stay at block 0, and the output's column block is 0. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 :=
  (by decide +kernel : ∀ t : Fin grid0.N, _)

/-- Every row block of the output is some point's. -/
theorem index_onto : ∀ q0 : Fin 16, ∃ t : Fin cfg0.N, win0_3.index t = ![q0.val, 0] :=
  (by decide +kernel : ∀ q0 : Fin 16, ∃ t : Fin grid0.N, win0_3.index t = ![q0.val, 0])

/-- WHAT POINT `t` WRITES BACK is block `t` of the distance function of the whole argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero2]
  simp only [View.ld_unit_zero (S := S1024x64) zero2, View.ld_unit_zero (S := S64) zero1]
  obtain ⟨e0, e1, e2, e3, e4, e5⟩ := index_facts t
  funext j
  show k0_pay1 (F := Ideal) (iblk m c 2 t) (iblk m c 0 t) (iblk m c 1 t) j = result m c (((cfg0.win 3).blk t).view.emb j)
  refine (congrFun (Payload.payload_eq (iblk m c 2 t) (iblk m c 0 t) (iblk m c 1 t)) j).trans ?_
  refine negHalfDist_congr _ _ _ _ _ _ j _ (fun k => ?_) (fun k => ?_) (fun k => ?_)
  · show V m c main_arg0 (((cfg0.win 0).blk t).view.emb (ix2 (j 0) k)) = V m c main_arg0 (ix2 ((((cfg0.win 3).blk t).view.emb j) 0) k)
    refine congrArg _ (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 64 + 1 * k.val = k.val; omega
  · show V m c main_arg1 (((cfg0.win 1).blk t).view.emb (ix2 (j 1) k)) = V m c main_arg1 (ix2 ((((cfg0.win 3).blk t).view.emb j) 1) k)
    refine congrArg _ (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 64 + 1 * k.val = k.val; omega
  · show V m c main_arg2 (((cfg0.win 2).blk t).view.emb (ix1 k)) = V m c main_arg2 (ix1 k)
    refine congrArg _ (funext fun a => Fin.ext ?_)
    match a with
    | ⟨0, _⟩ => show win0_2.index t (0 : Fin 1) * 64 + 1 * k.val = k.val; omega

/-- An index of the result is in point `t`'s tile iff each coordinate is in the tile's range on its axis. -/
theorem mem_blk (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- THE TILES COVER THE RESULT: row `r` lies in the tile of the point whose row block is `r / 1024`. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ := index_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- THE RESULT ARRAY after the run is the distance function of the argument arrays. -/
theorem final (c : Dev nD) : (dats m 0 c).arrAt 3 cfg0.N = result m c :=
  (dats m 0 c).arrAt_eq_of_cover 3 (result m c) (fun t _ => flushed_eq m c t) covered

/-- The kernel's run: it ends with the result at the distance function of the arguments as launched, and the
    arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Tiles

end
-- ==== Proof.RefValue.lean ====
/-
  The reference's result is the distance function of its three arguments.
  Read one operation at a time, entry `(p, q)` of the last stage is: the two scaled matrices
  `x / t` and `c / t` (the temperatures spread over the rows), each row's sum of squares started
  from a zero and spread over the `[16384, 1024]` grid (the points' down the rows, the centroids' along
  the columns), minus twice the contraction over the features, clamped at zero, rooted, negated and
  halved by a quotient: the reference's spelling of the cell, which Spec's `cellRef_eq` turns into the
  kernel's.
-/
import proofs.«161411_j65549790871957_1_alg».proof.Proof.Gen.ReferenceIdeal.Read
import proofs.«161411_j65549790871957_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Dist

/-! The composed index maps of the reading lemmas, in coordinates. -/

theorem idx_temp_x (p : Fin 16384) (k : Fin 64) : idx_main_v0 (idx_main_v1 (ix2 p k)) = ix1 k :=
  funext fun a => Fin.ext (by match a with | ⟨0, _⟩ => rfl)
theorem idx_temp_c (q : Fin 1024) (k : Fin 64) : idx_main_v3 (idx_main_v4 (ix2 q k)) = ix1 k :=
  funext fun a => Fin.ext (by match a with | ⟨0, _⟩ => rfl)
theorem idx_norm_x (p : Fin 16384) (q : Fin 1024) (k : Fin 64) :
    idx_main_v7 (idx_main_v8 (idx_main_v12 (ix2 p q))) k = ix2 p k :=
  funext fun a => Fin.ext (by match a with | ⟨0, _⟩ => rfl | ⟨1, _⟩ => rfl)
theorem idx_norm_c (p : Fin 16384) (q : Fin 1024) (k : Fin 64) :
    idx_main_v10 (idx_main_v11 (idx_main_v13 (ix2 p q))) k = ix2 q k :=
  funext fun a => Fin.ext (by match a with | ⟨0, _⟩ => rfl | ⟨1, _⟩ => rfl)
theorem idx_dot_x (p : Fin 16384) (q : Fin 1024) (k : Fin 64) : lidx_main_v15 (ix2 p q) k = ix2 p k :=
  funext fun a => Fin.ext (by match a with | ⟨0, _⟩ => rfl | ⟨1, _⟩ => rfl)
theorem idx_dot_c (p : Fin 16384) (q : Fin 1024) (k : Fin 64) : ridx_main_v15 (ix2 p q) k = ix2 q k :=
  funext fun a => Fin.ext (by match a with | ⟨0, _⟩ => rfl | ⟨1, _⟩ => rfl)

/-- The points divided by the temperatures. -/
theorem scaled_x (x0 : (⟨S16384x64, .f32⟩ : BufTy).Contents (Elt Ideal)) (x2 : (⟨S64, .f32⟩ : BufTy).Contents (Elt Ideal))
    (p : Fin 16384) (k : Fin 64) : val_main_v2 (F := Ideal) x0 x2 (ix2 p k) = scaled x0 x2 p k := by
  rw [val_main_v2_apply, val_main_v1_apply, val_main_v0_apply, idx_temp_x]; rfl

/-- The centroids divided by the temperatures. -/
theorem scaled_c (x1 : (⟨S1024x64, .f32⟩ : BufTy).Contents (Elt Ideal)) (x2 : (⟨S64, .f32⟩ : BufTy).Contents (Elt Ideal))
    (q : Fin 1024) (k : Fin 64) : val_main_v5 (F := Ideal) x1 x2 (ix2 q k) = scaled x1 x2 q k := by
  rw [val_main_v5_apply, val_main_v4_apply, val_main_v3_apply, idx_temp_c]; rfl

/-- THE REFERENCE'S LAST STAGE is the distance function of the arguments. -/
theorem result_eq (x0 : (⟨S16384x64, .f32⟩ : BufTy).Contents (Elt Ideal)) (x1 : (⟨S1024x64, .f32⟩ : BufTy).Contents (Elt Ideal))
    (x2 : (⟨S64, .f32⟩ : BufTy).Contents (Elt Ideal)) :
    val_main_v24 (F := Ideal) x0 x1 x2 = negHalfDist x0 x1 x2 := by
  funext i
  obtain ⟨p, q, rfl⟩ : ∃ (p : Fin 16384) (q : Fin 1024), i = ix2 p q := ⟨i 0, i 1, eq_ix2 i⟩
  rw [val_main_v24_apply, val_main_v22_apply, val_main_v21_apply, val_main_v20_apply, val_main_v18_apply,
    val_main_v14_apply, val_main_v12_apply, val_main_v8_apply, val_main_v7_apply, val_main_v13_apply,
    val_main_v11_apply, val_main_v10_apply, val_main_v17_apply, val_main_v15_apply, val_main_v16_apply,
    val_main_v19_apply, val_main_v23_apply]
  simp only [val_main_v6_apply, val_main_v9_apply, idx_norm_x, idx_norm_c, idx_dot_x, idx_dot_c, scaled_x, scaled_c,
    val_main_cst_apply, val_main_cst_0_apply, val_main_cst_1_apply, val_main_cst_2_apply, val_main_cst_3_apply]
  exact cellRef_eq _ _ _

end Cert.ReferenceIdeal.RefValue

end
-- ==== Proof.lean ====
/- The proof of `Cert.Claim`: a Pallas kernel for minus half the temperature-scaled Euclidean distance between
   16384 points and 1024 centroids in 64 features, against its jnp reference, over the extended reals.

   Both programs divide the points and the centroids entrywise by the temperatures and expand the squared
   distance of two scaled rows into two squared norms and an inner product,
       |a - b|^2 = |a|^2 + |b|^2 - 2 <a, b>,
   clamp it at zero, take the root, negate and halve. The kernel does this on tiles of 1024 points against all
   centroids, its norms as lane sums and its inner products as one matrix product per tile into a zero
   accumulator with operands narrowed to bf16; the reference does it once on the whole arrays with host sums and
   one contraction. Over the extended reals the narrowing is the identity, a lane sum and a host sum of the same
   entries are one sum, the tile's matrix product and the host's contraction are the same sums of products, and
   the kernel's `(0 - d) * (1/2)` is the reference's `(-d) / 2` for every `d`, infinite ones included (a quotient
   by the real 2 is the product with the real 1/2). No step cancels, distributes or moves a factor across a sum,
   so the inputs' finiteness is never used.

   Proof/Spec.lean states the function and the law joining the two spellings; Proof/LibColumn.lean reads a
   column cast and a column broadcast at an index; Proof/Payload.lean reads the kernel body's stored tile entry by
   entry; Proof/Tiles.lean goes from what each grid point writes back to the whole result array; Proof/RefValue.lean
   reads the reference's last stage; here the two runs are set side by side. The three frames are the generated
   ones (the reference's is its run with the result dropped), and the idealization rewrote nothing. -/
import proofs.«161411_j65549790871957_1_alg».proof.Defs
import proofs.«161411_j65549790871957_1_alg».proof.Proof.Gen.Kernel
import proofs.«161411_j65549790871957_1_alg».proof.Proof.Gen.Kernel.Skeleton
import proofs.«161411_j65549790871957_1_alg».proof.Proof.Gen.Kernel.Launch
import proofs.«161411_j65549790871957_1_alg».proof.Proof.Gen.Kernel.Points
import proofs.«161411_j65549790871957_1_alg».proof.Proof.Gen.Kernel.Frame
import proofs.«161411_j65549790871957_1_alg».proof.Proof.Gen.KernelIdeal
import proofs.«161411_j65549790871957_1_alg».proof.Proof.Gen.KernelIdeal.Skeleton
import proofs.«161411_j65549790871957_1_alg».proof.Proof.Gen.KernelIdeal.Launch
import proofs.«161411_j65549790871957_1_alg».proof.Proof.Gen.KernelIdeal.Points
import proofs.«161411_j65549790871957_1_alg».proof.Proof.Gen.KernelIdeal.Frame
import proofs.«161411_j65549790871957_1_alg».proof.Proof.Gen.ReferenceIdeal
import proofs.«161411_j65549790871957_1_alg».proof.Proof.Gen.Pre_finite_inputs
import proofs.«161411_j65549790871957_1_alg».proof.Proof.Gen.KernelIdeal.Value
import proofs.«161411_j65549790871957_1_alg».proof.Proof.Gen.ReferenceIdeal.Run
import proofs.«161411_j65549790871957_1_alg».proof.Proof.Gen.ReferenceIdeal.Read
import proofs.«161411_j65549790871957_1_alg».proof.Proof.Tiles
import proofs.«161411_j65549790871957_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments, the kernel's result array and the reference's both end at the
    distance function of those arguments. -/
theorem algebraic : Cert.algebraic_KernelIdeal_ReferenceIdeal := by
  intro m ρ m' ρ' _ hagree
  refine ⟨fun c => Cert.KernelIdeal.Tiles.result m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
